-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x128 : Shape := ⟨2, ![512, 128]⟩
abbrev S1x128 : Shape := ⟨2, ![1, 128]⟩
abbrev S128x256 : Shape := ⟨2, ![128, 256]⟩
abbrev S1x256 : Shape := ⟨2, ![1, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S16384x512 .f32) (main_arg1 : FVec F S512x128 .f32) (main_arg2 : FVec F S1x128 .f32) (main_arg3 : FVec F S128x256 .f32) (main_arg4 : FVec F S1x256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S16384x512 : Shape := ⟨2, ![16384, 512]⟩
abbrev S512x128 : Shape := ⟨2, ![512, 128]⟩
abbrev S1x128 : Shape := ⟨2, ![1, 128]⟩
abbrev S128x256 : Shape := ⟨2, ![128, 256]⟩
abbrev S1x256 : Shape := ⟨2, ![1, 256]⟩
abbrev S16384x256 : Shape := ⟨2, ![16384, 256]⟩
abbrev S512x512 : Shape := ⟨2, ![512, 512]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S1x128, .f32⟩
  | .hbm, ⟨3, _⟩ => ⟨S128x256, .f32⟩
  | .hbm, ⟨4, _⟩ => ⟨S1x256, .f32⟩
  | .hbm, ⟨5, _⟩ => ⟨S512x128, .bf16⟩
  | .hbm, ⟨6, _⟩ => ⟨S128x256, .bf16⟩
  | .hbm, ⟨7, _⟩ => ⟨S16384x256, .f32⟩
  | .local _ .vmem, ⟨0, _⟩ => ⟨S512x512, .f32⟩
  | .local _ .vmem, ⟨1, _⟩ => ⟨S512x512, .f32⟩
  | .local _ .vmem, ⟨2, _⟩ => ⟨S512x128, .bf16⟩
  | .local _ .vmem, ⟨3, _⟩ => ⟨S1x128, .f32⟩
  | .local _ .vmem, ⟨4, _⟩ => ⟨S128x256, .bf16⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x512_S512x128_S512x128_1_0_0_1_n_n_wf : DotDims.WF S512x512 S512x128 S512x128 [1] [0] [0] [1] [] []
  dot_S512x128_S128x256_S512x256_1_0_0_1_n_n_wf : DotDims.WF S512x128 S128x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S16384x256.size a
  hwx0_5 : ∀ i : grid0.Coords, EltTy.bits .f32 = 32 ∨ (Rect.block (s := S16384x256) S512x256.size (cc0_transform_5 i) (hinb0_5 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x128 : Shape := ⟨2, ![512, 128]⟩
abbrev S1x128 : Shape := ⟨2, ![1, 128]⟩
abbrev S128x256 : Shape := ⟨2, ![128, 256]⟩
abbrev S1x256 : Shape := ⟨2, ![1, 256]⟩
abbrev S_ : Shape := ⟨0, ![]⟩
abbrev S656x256 : Shape := ⟨2, ![656, 256]⟩
abbrev S1 : Shape := ⟨1, ![1]⟩
abbrev S2 : Shape := ⟨1, ![2]⟩
abbrev S128 : Shape := ⟨1, ![128]⟩
abbrev S256 : Shape := ⟨1, ![256]⟩
abbrev S16384x256 : Shape := ⟨2, ![16384, 256]⟩
abbrev S2048x512 : Shape := ⟨2, ![2048, 512]⟩
abbrev S2048x256 : Shape := ⟨2, ![2048, 256]⟩
abbrev S2048x128 : Shape := ⟨2, ![2048, 128]⟩

abbrev nBuf : Space → Nat
  | .hbm => 28
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S1x128, .f32⟩
  | .hbm, ⟨3, _⟩ => ⟨S128x256, .f32⟩
  | .hbm, ⟨4, _⟩ => ⟨S1x256, .f32⟩
  | .hbm, ⟨5, _⟩ => ⟨S_, .f32⟩
  | .hbm, ⟨6, _⟩ => ⟨S656x256, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S656x256, .f32⟩
  | .hbm, ⟨13, _⟩ => ⟨S128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S656x256, .f32⟩
  | .hbm, ⟨20, _⟩ => ⟨S_, .i32⟩
  | .hbm, ⟨21, _⟩ => ⟨S1, .i32⟩
  | .hbm, ⟨22, _⟩ => ⟨S656x256, .f32⟩
  | .hbm, ⟨23, _⟩ => ⟨S256, .f32⟩
  | .hbm, ⟨24, _⟩ => ⟨S_, .i32⟩
  | .hbm, ⟨25, _⟩ => ⟨S1, .i32⟩
  | .hbm, ⟨26, _⟩ => ⟨S656x256, .f32⟩
  | .hbm, ⟨27, _⟩ => ⟨S16384x256, .f32⟩
  | .local _ .vmem, ⟨0, _⟩ => ⟨S2048x512, .f32⟩
  | .local _ .vmem, ⟨1, _⟩ => ⟨S2048x512, .f32⟩
  | .local _ .vmem, ⟨2, _⟩ => ⟨S656x256, .f32⟩
  | .local _ .vmem, ⟨3, _⟩ => ⟨S2048x256, .f32⟩
  | .local _ .vmem, ⟨4, _⟩ => ⟨S2048x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_3 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_4 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S656x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S656x256 : S_.BroadcastsInDim S656x256 (![] : Fin 0 → Fin S656x256.rank)
  bcast_S_S1 : S_.BroadcastsInDim S1 (![] : Fin 0 → Fin S1.rank)
  concatenates_S1_S1_S2_d0 : Shape.Concatenates [S1, S1] S2 0
  shapeCasts_S1x128_S128 : S1x128.ShapeCasts S128
  shapeCasts_S1x256_S256 : S1x256.ShapeCasts S256
  inb_S2048x512_S2048x512_0_0 : ∀ a, (![0, 0] : Fin 2 → Nat) a + S2048x512.size a ≤ S2048x512.size a
  h_S2048x512 : 0 < S2048x512.numel
  inb_S656x256_S512x128_0_0 : ∀ a, (![0, 0] : Fin 2 → Nat) a + S512x128.size a ≤ S656x256.size a
  h_S512x128 : 0 < S512x128.numel
  shapeCasts_S512x128_S512x128 : S512x128.ShapeCasts S512x128
  inb_S656x256_S1x128_512_0 : ∀ a, (![512, 0] : Fin 2 → Nat) a + S1x128.size a ≤ S656x256.size a
  h_S1x128 : 0 < S1x128.numel
  shapeCasts_S1x128_S1x128 : S1x128.ShapeCasts S1x128
  inb_S656x256_S128x256_520_0 : ∀ a, (![520, 0] : Fin 2 → Nat) a + S128x256.size a ≤ S656x256.size a
  h_S128x256 : 0 < S128x256.numel
  shapeCasts_S128x256_S128x256 : S128x256.ShapeCasts S128x256
  inb_S656x256_S1x256_648_0 : ∀ a, (![648, 0] : Fin 2 → Nat) a + S1x256.size a ≤ S656x256.size a
  h_S1x256 : 0 < S1x256.numel
  shapeCasts_S1x256_S1x256 : S1x256.ShapeCasts S1x256
  broadcasts_S1x128_S2048x128 : S1x128.Broadcasts S2048x128
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  scatter_S656x256_S2_S512x128_01_n_01_0_wf : ScatterDims.WF S656x256 S2 S512x128 [0, 1] [] [0, 1] 0
  scatter_S656x256_S2_S128_0_0_01_0_wf : ScatterDims.WF S656x256 S2 S128 [0] [0] [0, 1] 0
  scatter_S656x256_S1_S128x256_01_n_0_0_wf : ScatterDims.WF S656x256 S1 S128x256 [0, 1] [] [0] 0
  scatter_S656x256_S1_S256_0_0_0_0_wf : ScatterDims.WF S656x256 S1 S256 [0] [0] [0] 0
  dot_S2048x512_S512x128_S2048x128_1_0_0_1_n_n_wf : DotDims.WF S2048x512 S512x128 S2048x128 [1] [0] [0] [1] [] []
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S656x256.size a ≤ S656x256.size a
  hwx0_1 : ∀ i : grid0.Coords, EltTy.bits .f32 = 32 ∨ (Rect.block (s := S656x256) S656x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)

variable [Facts₀]

def scatter_S656x256_S2_S512x128_01_n_01_0 : ScatterDims S656x256 S2 S512x128 where
  updateWindowDims := [0, 1]
  insertedWindowDims := []
  scatterDimsToOperandDims := [0, 1]
  indexVectorDim := 0
  wf := scatter_S656x256_S2_S512x128_01_n_01_0_wf
def scatter_S656x256_S2_S128_0_0_01_0 : ScatterDims S656x256 S2 S128 where
  updateWindowDims := [0]
  insertedWindowDims := [0]
  scatterDimsToOperandDims := [0, 1]
  indexVectorDim := 0
  wf := scatter_S656x256_S2_S128_0_0_01_0_wf
def scatter_S656x256_S1_S128x256_01_n_0_0 : ScatterDims S656x256 S1 S128x256 where
  updateWindowDims := [0, 1]
  insertedWindowDims := []
  scatterDimsToOperandDims := [0]
  indexVectorDim := 0
  wf := scatter_S656x256_S1_S128x256_01_n_0_0_wf
def scatter_S656x256_S1_S256_0_0_0_0 : ScatterDims S656x256 S1 S256 where
  updateWindowDims := [0]
  insertedWindowDims := [0]
  scatterDimsToOperandDims := [0]
  indexVectorDim := 0
  wf := scatter_S656x256_S1_S256_0_0_0_0_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S656x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.MlpSpec.lean ====
/-
  THE NETWORK AS ONE FUNCTION. The two-layer perceptron out = relu(x · w1 + b1) · w2 + b2 over f32[16384, 512] inputs,
  hidden width 128 and output width 256, read at the ideal values (extended reals, exact operations): entry (r, q) of the
  result depends on row r of x alone,

      out(r, q) = ( ∑ k < 128, max( (∑ s < 512, x(r, s) · w1(s, k)) + b1(0, k), 0 ) · w2(k, q) ) + b2(0, q),

  so a block of R consecutive rows of the result is the same expression of the matching R rows of x, whatever R is.
  `block_apply` says so of the operations a kernel body spells it with: two matrix products into zero splats, the two
  biases broadcast down the rows, and the maximum with a zero splat.
-/
import Idealize.ShloMosaic.Lib.Pipeline.Value
import proofs.«137858_g2000002520895961_pallasbulk_315_2_alg».proof.Proof.LibPlainMatmul

open scoped BigOperators

noncomputable section

namespace Cert.Mlp

open Idealize.ShloMosaic Idealize.ShloMosaic.ValueIdx Idealize.ShloMosaic.PlainMatmul

/-- Output row of the network from one input row `xr`: hidden unit k is max(xr · w1(·, k) + b1(0, k), 0), and output
    q is the hidden row times column q of w2, plus b2(0, q). The zero is kept as the f32 pattern both programs print. -/
def row (xr : Fin 512 → EReal) (w1 : (⟨2, ![512, 128]⟩ : Shape).Idx → EReal) (b1 : (⟨2, ![1, 128]⟩ : Shape).Idx → EReal)
    (w2 : (⟨2, ![128, 256]⟩ : Shape).Idx → EReal) (b2 : (⟨2, ![1, 256]⟩ : Shape).Idx → EReal) (q : Fin 256) : EReal :=
  (∑ k : Fin 128, max ((∑ s : Fin 512, xr s * w1 (ix2 s k)) + b1 (ix2 (0 : Fin 1) k)) (Ideal.ofBits .f32 0x00000000#32)
      * w2 (ix2 k q))
    + b2 (ix2 (0 : Fin 1) q)

/-- The whole result: entry (r, q) is `row` of row r of x at q. -/
def out (x : (⟨2, ![16384, 512]⟩ : Shape).Idx → EReal) (w1 : (⟨2, ![512, 128]⟩ : Shape).Idx → EReal)
    (b1 : (⟨2, ![1, 128]⟩ : Shape).Idx → EReal) (w2 : (⟨2, ![128, 256]⟩ : Shape).Idx → EReal)
    (b2 : (⟨2, ![1, 256]⟩ : Shape).Idx → EReal) : (⟨2, ![16384, 256]⟩ : Shape).Idx → EReal :=
  fun i => row (fun s => x (ix2 (i 0) s)) w1 b1 w2 b2 (i 1)

/-- A one-row matrix broadcast down R rows reads, at (p, c), the row's entry c. -/
theorem bcast_row_apply {R C : Nat} (v : (⟨2, ![1, C]⟩ : Shape).Idx → EReal)
    (h : (⟨2, ![1, C]⟩ : Shape).Broadcasts ⟨2, ![R, C]⟩) (hC : C ≠ 1) (p : Fin R) (c : Fin C) :
    broadcastTo ⟨2, ![R, C]⟩ v h (ix2 p c) = v (ix2 (0 : Fin 1) c) := by
  refine broadcastTo_apply v h (ix2 p c) (ix2 (0 : Fin 1) c) (fun a => ?_)
  match a with
  | ⟨0, _⟩ => rfl
  | ⟨1, _⟩ =>
    show c.val = if C = 1 then 0 else c.val
    rw [if_neg hC]

/-- A block of R rows, as a kernel body computes it from its R × 512 block X of x and the four parameter matrices:
    at (p, q) it is `row` of row p of X. -/
theorem block_apply {R : Nat} {φa φb φc φd : FTy}
    (d1 : DotDims ⟨2, ![R, 512]⟩ ⟨2, ![512, 128]⟩ ⟨2, ![R, 128]⟩)
    (wf1 : DotDims.WF ⟨2, ![R, 512]⟩ ⟨2, ![512, 128]⟩ ⟨2, ![R, 128]⟩ [1] [0] [0] [1] [] []) (h1 : d1 = dims wf1)
    (d2 : DotDims ⟨2, ![R, 128]⟩ ⟨2, ![128, 256]⟩ ⟨2, ![R, 256]⟩)
    (wf2 : DotDims.WF ⟨2, ![R, 128]⟩ ⟨2, ![128, 256]⟩ ⟨2, ![R, 256]⟩ [1] [0] [0] [1] [] []) (h2 : d2 = dims wf2)
    (hb1 : (⟨2, ![1, 128]⟩ : Shape).Broadcasts ⟨2, ![R, 128]⟩) (hb2 : (⟨2, ![1, 256]⟩ : Shape).Broadcasts ⟨2, ![R, 256]⟩)
    (X : FVec Ideal ⟨2, ![R, 512]⟩ φa) (W1 : FVec Ideal ⟨2, ![512, 128]⟩ φb) (B1 : FVec Ideal ⟨2, ![1, 128]⟩ .f32)
    (W2 : FVec Ideal ⟨2, ![128, 256]⟩ φd) (B2 : FVec Ideal ⟨2, ![1, 256]⟩ .f32) (p : Fin R) (q : Fin 256) :
    addf
        (matmul d2 none
          (maximumf (φ := φc)
            (addf (matmul d1 none X W1 (constant ⟨2, ![R, 128]⟩ .f32 0x00000000#32)) (broadcastTo ⟨2, ![R, 128]⟩ B1 hb1))
            (broadcast ⟨2, ![R, 128]⟩ (Scalar.ofBits (F := Ideal) .f32 0x00000000#32)))
          W2 (constant ⟨2, ![R, 256]⟩ .f32 0x00000000#32))
        (broadcastTo ⟨2, ![R, 256]⟩ B2 hb2) (ix2 p q)
      = row (fun s => X (ix2 p s)) W1 B1 W2 B2 q := by
  show matmul d2 none _ W2 _ (ix2 p q) + broadcastTo ⟨2, ![R, 256]⟩ B2 hb2 (ix2 p q) = _
  rw [matmul_zero_apply d2 wf2 h2, bcast_row_apply B2 hb2 (by decide)]
  unfold row
  refine congrArg (· + B2 (ix2 (0 : Fin 1) q)) (Finset.sum_congr rfl fun c _ => ?_)
  refine congrArg (· * W2 (ix2 c q)) ?_
  show max (matmul d1 none X W1 _ (ix2 p c) + broadcastTo ⟨2, ![R, 128]⟩ B1 hb1 (ix2 p c)) (Ideal.ofBits .f32 0x00000000#32) = _
  rw [matmul_zero_apply d1 wf1 h1, bcast_row_apply B1 hb1 (by decide)]

end Cert.Mlp

end
-- ==== Proof.KernelValue.lean ====
/-
  WHAT THE KERNEL LEAVES IN ITS RESULT ARRAY, at the ideal values. The kernel walks 32 grid points; point t stages rows
  512·t … 512·t + 511 of x (a 512 × 512 block) with the four parameter matrices whole, and writes back a 512 × 256 block
  of the result: entry (p, q) of that block is `Mlp.row` of row p of the staged x block (`pay_apply`: the conversions to
  bf16 are the identity on extended reals). So each written block is the matching block of ONE array, `Mlp.out` of the
  arrays the region finds (`flushed_eq`); the 32 blocks tile the 16384 rows (`cover`), hence the result array is
  `Mlp.out` of the arguments — the two bf16 copies of w1 and w2 that @main makes before the call are w1 and w2 themselves
  at the ideal values (`V_w1`, `V_w2`).
-/
import proofs.«137858_g2000002520895961_pallasbulk_315_2_alg».proof.Proof.Gen.KernelIdeal.Value
import proofs.«137858_g2000002520895961_pallasbulk_315_2_alg».proof.Proof.MlpSpec
import Idealize.ShloMosaic.Lib.StableHlo.Run

set_option maxRecDepth 16384

noncomputable section

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A conversion to a narrower float format is the identity on extended reals. -/
theorem truncf_ideal {s : Shape} {φ ψ : FTy} (a : FVec Ideal s φ) (h : ψ.bits < φ.bits) :
    (truncf ψ a h : s.Idx → EReal) = a := rfl

/-! ## The body's payload at an entry -/

/-- Entry (p, q) of the block the body stores: the network's output row for row p of the staged x block. -/
theorem pay_apply (v0 : Vec Ideal S512x512 .f32) (v2 : Vec Ideal S512x128 .bf16) (v5 : Vec Ideal S1x128 .f32)
    (v11 : Vec Ideal S128x256 .bf16) (v14 : Vec Ideal S1x256 .f32) (p : Fin 512) (q : Fin 256) :
    k0_pay1 (F := Ideal) v0 v2 v5 v11 v14 (ix2 p q) = Cert.Mlp.row (fun s => v0 (ix2 p s)) v2 v5 v11 v14 q := by
  unfold k0_pay1
  simp only [shapeCast_self]
  exact Cert.Mlp.block_apply (R := 512) (φa := .bf16) (φb := .bf16) (φc := .f32) (φd := .bf16)
    dot_S512x512_S512x128_S512x128_1_0_0_1_n_n Facts₀.dot_S512x512_S512x128_S512x128_1_0_0_1_n_n_wf rfl
    dot_S512x128_S128x256_S512x256_1_0_0_1_n_n Facts₀.dot_S512x128_S128x256_S512x256_1_0_0_1_n_n_wf rfl
    Facts₀.broadcasts_S1x128_S512x128 Facts₀.broadcasts_S1x256_S512x256
    (truncf .bf16 v0 Facts₀.bitsLt_bf16_f32) v2 v5 v11 v14 p q

/-! ## The arrays the region finds -/

/-- The bf16 copy of w1 that @main makes before the call is w1 at the ideal values. -/
theorem V_w1 (c : Dev nD) :
    (V (F := Ideal) m c main_call0_v0 : S512x128.Idx → EReal) = m ((c : Thread nD τ).loc main_arg1) := by
  dsimp only [Gen.V, Gen.hostOps0]; after_results; rfl

/-- … and the copy of w2 is w2. -/
theorem V_w2 (c : Dev nD) :
    (V (F := Ideal) m c main_call0_v1 : S128x256.Idx → EReal) = m ((c : Thread nD τ).loc main_arg3) := by
  dsimp only [Gen.V, Gen.hostOps0]; after_results; rfl

/-- The result array as one function of the arrays the region finds. -/
abbrev G (c : Dev nD) : S16384x256.Idx → EReal :=
  Cert.Mlp.out (V m c main_arg0) (V m c main_call0_v0) (V m c main_arg2) (V m c main_call0_v1) (V m c main_arg4)

/-! ## From blocks to the array -/

/-- The printed index maps over the 32 points: x and the result move together down the rows, one block per point;
    every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of `G`. -/
theorem flushed_eq (c : Dev nD) (t : Fin cfg0.N) :
    (dats m 0 c).flushed 5 t = ((cfg0.win 5).blk t).view.read (Elt Ideal) (G m c) := by
  rw [Cert.KernelIdeal.Value.flushed5]
  unfold out0_5
  rw [View.canon_unit_zero hz]
  simp only [View.ld_unit_zero (S := S512x512) hz, View.ld_unit_zero (S := S512x128) hz, View.ld_unit_zero (S := S1x128) hz,
    View.ld_unit_zero (S := S128x256) hz, View.ld_unit_zero (S := S1x256) hz]
  obtain ⟨e00, e01, e10, e11, e20, e21, e30, e31, e40, e41, e50, e51⟩ := idx_facts t
  funext j
  obtain ⟨p, q, rfl⟩ : ∃ (p : Fin 512) (q : Fin 256), j = ix2 p q := ⟨j 0, j 1, eq_ix2 j⟩
  show k0_pay1 (F := Ideal) (iblk m c 0 t) (iblk m c 1 t) (iblk m c 2 t) (iblk m c 3 t) (iblk m c 4 t) (ix2 p q)
    = G m c (((cfg0.win 5).blk t).view.emb (ix2 p q))
  refine (pay_apply (iblk m c 0 t) (iblk m c 1 t) (iblk m c 2 t) (iblk m c 3 t) (iblk m c 4 t) p q).trans ?_
  have hx : (fun s : Fin 512 => (iblk m c 0 t : S512x512.Idx → EReal) (ix2 p s))
      = fun s => (V m c main_arg0 : S16384x512.Idx → EReal) (ix2 ((((cfg0.win 5).blk t).view.emb (ix2 p q)) 0) s) := by
    funext s
    show (V m c main_arg0 : S16384x512.Idx → EReal) (((cfg0.win 0).blk t).view.emb (ix2 p s)) = _
    refine congrArg (V m c main_arg0 : S16384x512.Idx → EReal) (funext fun a => Fin.ext ?_)
    match a with
    | ⟨0, _⟩ =>
      show win0_0.index t (0 : Fin 2) * 512 + 1 * p.val = win0_5.index t (0 : Fin 2) * 512 + 1 * p.val
      rw [e00, e50]
    | ⟨1, _⟩ =>
      show win0_0.index t (1 : Fin 2) * 512 + 1 * s.val = s.val
      rw [e01]; omega
  have h1 : (iblk m c 1 t : S512x128.Idx → EReal) = V m c main_call0_v0 := by
    funext y
    show (V m c main_call0_v0 : S512x128.Idx → EReal) (((cfg0.win 1).blk t).view.emb y) = _
    refine congrArg (V m c main_call0_v0 : S512x128.Idx → EReal) (funext fun a => Fin.ext ?_)
    match a with
    | ⟨0, _⟩ => show win0_1.index t (0 : Fin 2) * 512 + 1 * (y 0).val = (y 0).val; rw [e10]; omega
    | ⟨1, _⟩ => show win0_1.index t (1 : Fin 2) * 128 + 1 * (y 1).val = (y 1).val; rw [e11]; omega
  have h2 : (iblk m c 2 t : S1x128.Idx → EReal) = V m c main_arg2 := by
    funext y
    show (V m c main_arg2 : S1x128.Idx → EReal) (((cfg0.win 2).blk t).view.emb y) = _
    refine congrArg (V m c main_arg2 : S1x128.Idx → EReal) (funext fun a => Fin.ext ?_)
    match a with
    | ⟨0, _⟩ => show win0_2.index t (0 : Fin 2) * 1 + 1 * (y 0).val = (y 0).val; rw [e20]; omega
    | ⟨1, _⟩ => show win0_2.index t (1 : Fin 2) * 128 + 1 * (y 1).val = (y 1).val; rw [e21]; omega
  have h3 : (iblk m c 3 t : S128x256.Idx → EReal) = V m c main_call0_v1 := by
    funext y
    show (V m c main_call0_v1 : S128x256.Idx → EReal) (((cfg0.win 3).blk t).view.emb y) = _
    refine congrArg (V m c main_call0_v1 : S128x256.Idx → EReal) (funext fun a => Fin.ext ?_)
    match a with
    | ⟨0, _⟩ => show win0_3.index t (0 : Fin 2) * 128 + 1 * (y 0).val = (y 0).val; rw [e30]; omega
    | ⟨1, _⟩ => show win0_3.index t (1 : Fin 2) * 256 + 1 * (y 1).val = (y 1).val; rw [e31]; omega
  have h4 : (iblk m c 4 t : S1x256.Idx → EReal) = V m c main_arg4 := by
    funext y
    show (V m c main_arg4 : S1x256.Idx → EReal) (((cfg0.win 4).blk t).view.emb y) = _
    refine congrArg (V m c main_arg4 : S1x256.Idx → EReal) (funext fun a => Fin.ext ?_)
    match a with
    | ⟨0, _⟩ => show win0_4.index t (0 : Fin 2) * 1 + 1 * (y 0).val = (y 0).val; rw [e40]; omega
    | ⟨1, _⟩ => show win0_4.index t (1 : Fin 2) * 256 + 1 * (y 1).val = (y 1).val; rw [e41]; omega
  have hq : ((((cfg0.win 5).blk t).view.emb (ix2 p q)) 1 : Fin 256) = q := by
    apply Fin.ext
    show win0_5.index t (1 : Fin 2) * 256 + 1 * q.val = q.val
    rw [e51]; omega
  show Cert.Mlp.row (fun s : Fin 512 => (iblk m c 0 t : S512x512.Idx → EReal) (ix2 p s)) (iblk m c 1 t : S512x128.Idx → EReal)
      (iblk m c 2 t : S1x128.Idx → EReal) (iblk m c 3 t : S128x256.Idx → EReal) (iblk m c 4 t : S1x256.Idx → EReal) q
    = Cert.Mlp.row (fun s => (V m c main_arg0 : S16384x512.Idx → EReal) (ix2 ((((cfg0.win 5).blk t).view.emb (ix2 p q)) 0) s))
      (V m c main_call0_v0) (V m c main_arg2) (V m c main_call0_v1) (V m c main_arg4) ((((cfg0.win 5).blk t).view.emb (ix2 p q)) 1)
  rw [hx, h1, h2, h3, h4, hq]

/-- An index of the result array is in point t's block iff each coordinate is in the block's range on its axis. -/
theorem mem_blk (t : Fin cfg0.N) (i : S16384x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v0).slice (win0_5.rect t)).set ↔ _
  rw [View.set_slice_whole, Rect.mem_set_unit]
  exact Iff.rfl

/-- Every row of the result is in the block of the point its row number divided by 512 names. -/
theorem cover (i : S16384x256.Idx) : ∃ t : Fin cfg0.N, (cfg0.win 5).flush t = true ∧ i ∈ ((cfg0.win 5).blk t).view.set := by
  have hi0 : (i 0).val < 16384 := (i 0).isLt
  have hi1 : (i 1).val < 256 := (i 1).isLt
  let t : Fin cfg0.N := ⟨(i 0).val / 512, by show (i 0).val / 512 < 32; omega⟩
  obtain ⟨-, -, -, -, -, -, -, -, -, -, e50, e51⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e50, ht]; omega
  | ⟨1, _⟩ => show win0_5.index t (1 : Fin 2) * 256 ≤ (i 1).val ∧ (i 1).val < win0_5.index t (1 : Fin 2) * 256 + 256; rw [e51]; omega

/-- The result array after the run is the network's output of the argument arrays. -/
theorem final (c : Dev nD) :
    (dats m 0 c).arrAt 5 cfg0.N
      = Cert.Mlp.out (m ((c : Thread nD τ).loc main_arg0)) (m ((c : Thread nD τ).loc main_arg1)) (m ((c : Thread nD τ).loc main_arg2))
          (m ((c : Thread nD τ).loc main_arg3)) (m ((c : Thread nD τ).loc main_arg4)) := by
  rw [(dats m 0 c).arrAt_eq_of_cover 5 (G m c) (fun t _ => flushed_eq m c t) cover]
  show Cert.Mlp.out (V m c main_arg0) (V m c main_call0_v0) (V m c main_arg2) (V m c main_call0_v1) (V m c main_arg4) = _
  rw [V_w1, V_w2, V_main_arg0, V_main_arg2, V_main_arg4]

/-- The kernel's run: the result array at the network's output of the arguments, the arguments unchanged. -/
theorem run : θ_run defs (onTc (τ := τ) (main (F := Ideal))) ⟨m, fun _ => 0, ρ⟩ fun r => ∀ c : Dev nD,
      r.2.mem ((c : Thread nD τ).loc main_v0)
        = Cert.Mlp.out (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.MlpValue

end
-- ==== Proof.LibScatterSet.lean ====
/-
  AN OVERWRITING SCATTER READ AT AN ENTRY. A host `stablehlo.scatter` whose body returns the update (`x.at[…].set(u)`)
  folds, over the update entries in row-major order, "replace the operand entry this update entry lands on". Read at an
  operand entry i: if exactly one update entry j lands on i the result there is the update's entry j (`scatter_set_hit`),
  and if none does it is the operand's entry (`scatter_set_miss`). When every update entry lands somewhere and the
  landing map is injective — one window written at a start index that keeps it inside the operand — the result is the
  update on the window and the operand off it (`scatter_set_land`, `scatter_set_off`).
-/
import Idealize.ShloMosaic.PureOps.ShapeOps

namespace Idealize.ShloMosaic.ScatterSet

open Idealize.ShloMosaic

variable {α : Type} {s si u : Shape} {w : Nat}

/-- The fold's step, as `Host.scatter` spells it for the body that returns the update. -/
def step (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- One step at an entry the update entry does not land on leaves it; at the entry it lands on it leaves the update. -/
theorem step_apply (d : ScatterDims s si u) (idx : IVec si w) (upd : u.Idx → α) (r : s.Idx → α) (n : Fin u.numel)
    (i : s.Idx) :
    step d idx upd r n i = if d.resultIdx? (u.rowMajor.symm n) idx = some i then upd (u.rowMajor.symm n) else r i := by
  unfold step
  cases hres : d.resultIdx? (u.rowMajor.symm n) idx with
  | none => simp
  | some i' =>
    by_cases hi : i = i'
    · subst hi; simp
    · have hne : ¬ (some i' = some i) := fun e => hi (Option.some.inj e).symm
      simp [hi, hne]

/-- Entry i after the fold over a list of update positions, when position n0 is the only one that lands on i. -/
theorem foldl_apply_unique (d : ScatterDims s si u) (idx : IVec si w) (upd : u.Idx → α) (i : s.Idx) (n0 : Fin u.numel)
    (h0 : d.resultIdx? (u.rowMajor.symm n0) idx = some i)
    (huniq : ∀ n, d.resultIdx? (u.rowMajor.symm n) idx = some i → n = n0) (l : List (Fin u.numel)) (r : s.Idx → α) :
    (l.foldl (step d idx upd) r) i = if n0 ∈ l then upd (u.rowMajor.symm n0) else r i := by
  induction l generalizing r with
  | nil => simp
  | cons a t ih =>
    rw [List.foldl_cons, ih, step_apply]
    by_cases hmem : n0 ∈ t
    · simp [hmem]
    · rw [if_neg hmem]
      by_cases ha : d.resultIdx? (u.rowMajor.symm a) idx = some i
      · have : a = n0 := huniq a ha
        subst this
        simp [ha]
      · have hne : n0 ≠ a := fun e => ha (e ▸ h0)
        simp [ha, hne, hmem]

/-- Entry i after the fold, when no update position lands on i. -/
theorem foldl_apply_none (d : ScatterDims s si u) (idx : IVec si w) (upd : u.Idx → α) (i : s.Idx)
    (hmiss : ∀ j, d.resultIdx? j idx ≠ some i) (l : List (Fin u.numel)) (r : s.Idx → α) :
    (l.foldl (step d idx upd) r) i = r i := by
  induction l generalizing r with
  | nil => rfl
  | cons a t ih => rw [List.foldl_cons, ih, step_apply, if_neg (hmiss _)]

/-- The overwriting scatter at an operand entry exactly one update entry lands on. -/
theorem scatter_set_hit (d : ScatterDims s si u) (x : s.Idx → α) (idx : IVec si w) (upd : u.Idx → α) (i : s.Idx) (j : u.Idx)
    (h0 : d.resultIdx? j idx = some i) (huniq : ∀ j', d.resultIdx? j' idx = some i → j' = j) :
    Host.scatter d (fun _ b => b) x idx upd i = upd j := by
  have hj : u.rowMajor.symm (u.rowMajor j) = j := Equiv.symm_apply_apply _ _
  rw [scatter_eq_foldl, foldl_apply_unique d idx upd i (u.rowMajor j) (by rw [hj]; exact h0)
    (fun n hn => by rw [← huniq _ hn]; exact (Equiv.apply_symm_apply _ _).symm), if_pos (List.mem_finRange _), hj]

/-- … and at an operand entry no update entry lands on. -/
theorem scatter_set_miss (d : ScatterDims s si u) (x : s.Idx → α) (idx : IVec si w) (upd : u.Idx → α) (i : s.Idx)
    (hmiss : ∀ j, d.resultIdx? j idx ≠ some i) : Host.scatter d (fun _ b => b) x idx upd i = x i := by
  rw [scatter_eq_foldl, foldl_apply_none d idx upd i hmiss]

/-- ONE WINDOW: every update entry j lands, on `land j`, and distinct entries land apart. On the window the result
    is the update. -/
theorem scatter_set_land (d : ScatterDims s si u) (x : s.Idx → α) (idx : IVec si w) (upd : u.Idx → α) (land : u.Idx → s.Idx)
    (hland : ∀ j, d.resultIdx? j idx = some (land j)) (hinj : Function.Injective land) (j : u.Idx) :
    Host.scatter d (fun _ b => b) x idx upd (land j) = upd j :=
  scatter_set_hit d x idx upd (land j) j (hland j) fun j' h => hinj (Option.some.inj ((hland j').symm.trans h))

/-- … and off the window it is the operand. -/
theorem scatter_set_off (d : ScatterDims s si u) (x : s.Idx → α) (idx : IVec si w) (upd : u.Idx → α) (land : u.Idx → s.Idx)
    (hland : ∀ j, d.resultIdx? j idx = some (land j)) (i : s.Idx) (hoff : ∀ j, land j ≠ i) :
    Host.scatter d (fun _ b => b) x idx upd i = x i :=
  scatter_set_miss d x idx upd i fun j h => hoff j (Option.some.inj ((hland j).symm.trans h))

end Idealize.ShloMosaic.ScatterSet
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefSlab.lean ====
/-
  THE PARAMETER SLAB. Before its call the reference packs the four parameter matrices into one 656 × 256 array of zeros:
  w1 at rows 0 … 511, columns 0 … 127; b1 (as a vector of 128) at row 512, columns 0 … 127; w2 at rows 520 … 647, all 256
  columns; b2 (as a vector of 256) at row 648. Each is one overwriting scatter of one window at a constant start index
  (`slab`, the composed term; `V_slab`: it is what the region finds). The four windows do not meet, so read at an entry
  of one of them the slab holds that matrix's entry: the later scatters miss it and the one that writes it lands each
  update entry on its own slab entry (`slab_w1`, `slab_b1`, `slab_w2`, `slab_b2`).
-/
import proofs.«137858_g2000002520895961_pallasbulk_315_2_alg».proof.Proof.Gen.ReferenceIdeal.Frame
import proofs.«137858_g2000002520895961_pallasbulk_315_2_alg».proof.Proof.LibScatterSet
import proofs.«137858_g2000002520895961_pallasbulk_315_2_alg».proof.Proof.LibGatherScatter
import Idealize.ShloMosaic.Lib.StableHlo.Run
import Idealize.ShloMosaic.Lib.Pipeline.Value
import Idealize.ShloMosaic.Lib.ValueIdx

noncomputable section

namespace Cert.ReferenceIdeal.Slab

open Cert.ReferenceIdeal Cert.ReferenceIdeal.Gen Idealize.ShloMosaic Idealize.ShloMosaic.TcCoe Idealize.SL.Sem
open Idealize.ShloMosaic.ValueIdx Idealize.ShloMosaic.ScatterSet Idealize.ShloMosaic.RowOps Idealize.ShloMosaic.StableHlo

/-! ## The four start indices -/

/-- Start (0, 0): where w1 goes. -/
abbrev at00 : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0
/-- Start (512, 0): where b1 goes. -/
abbrev at512 : IVec S2 32 :=
  concatenate S2 0 [⟨S1, broadcastInDim S1 ![] bcast_S_S1 (constantI S_ 32 512#32)⟩, ⟨S1, broadcastInDim S1 ![] bcast_S_S1 (constantI S_ 32 0#32)⟩] concatenates_S1_S1_S2_d0
/-- Start row 520: where w2 goes. -/
abbrev at520 : IVec S1 32 := broadcastInDim S1 ![] bcast_S_S1 (constantI S_ 32 520#32)
/-- Start row 648: where b2 goes. -/
abbrev at648 : IVec S1 32 := broadcastInDim S1 ![] bcast_S_S1 (constantI S_ 32 648#32)

/-- The slab: zeros, then the four windows written one after the other. -/
def slab (w1 : S512x128.Idx → EReal) (b1 : S1x128.Idx → EReal) (w2 : S128x256.Idx → EReal) (b2 : S1x256.Idx → EReal) :
    S656x256.Idx → EReal :=
  Host.scatter scatter_S656x256_S1_S256_0_0_0_0 (fun _ b => b)
    (Host.scatter scatter_S656x256_S1_S128x256_01_n_0_0 (fun _ b => b)
      (Host.scatter scatter_S656x256_S2_S128_0_0_01_0 (fun _ b => b)
        (Host.scatter scatter_S656x256_S2_S512x128_01_n_01_0 (fun _ b => b)
          (broadcastInDim S656x256 ![] bcast_S_S656x256 (constant (F := Ideal) S_ .f32 0x00000000#32)) at00 w1)
        at512 (shapeCast S128 b1 shapeCasts_S1x128_S128))
      at520 w2)
    at648 (shapeCast S256 b2 shapeCasts_S1x256_S256)

/-! ## Where each update entry lands -/

theorem start_w1_0 (j : S512x128.Idx) (idx : IVec S2 32) :
    scatter_S656x256_S2_S512x128_01_n_01_0.start j idx 0 = (idx (ix1 (0 : Fin 2))).toInt := by
  show (idx (scatter_S656x256_S2_S512x128_01_n_01_0.siIdx j ⟨0, _⟩)).toInt = _
  refine congrArg (fun k => (idx k).toInt) (funext fun b => ?_)
  match b with | ⟨0, _⟩ => rfl
theorem start_w1_1 (j : S512x128.Idx) (idx : IVec S2 32) :
    scatter_S656x256_S2_S512x128_01_n_01_0.start j idx 1 = (idx (ix1 (1 : Fin 2))).toInt := by
  show (idx (scatter_S656x256_S2_S512x128_01_n_01_0.siIdx j ⟨1, _⟩)).toInt = _
  refine congrArg (fun k => (idx k).toInt) (funext fun b => ?_)
  match b with | ⟨0, _⟩ => rfl
theorem start_b1_0 (j : S128.Idx) (idx : IVec S2 32) :
    scatter_S656x256_S2_S128_0_0_01_0.start j idx 0 = (idx (ix1 (0 : Fin 2))).toInt := by
  show (idx (scatter_S656x256_S2_S128_0_0_01_0.siIdx j ⟨0, _⟩)).toInt = _
  refine congrArg (fun k => (idx k).toInt) (funext fun b => ?_)
  match b with | ⟨0, _⟩ => rfl
theorem start_b1_1 (j : S128.Idx) (idx : IVec S2 32) :
    scatter_S656x256_S2_S128_0_0_01_0.start j idx 1 = (idx (ix1 (1 : Fin 2))).toInt := by
  show (idx (scatter_S656x256_S2_S128_0_0_01_0.siIdx j ⟨1, _⟩)).toInt = _
  refine congrArg (fun k => (idx k).toInt) (funext fun b => ?_)
  match b with | ⟨0, _⟩ => rfl
theorem start_w2_0 (j : S128x256.Idx) (idx : IVec S1 32) :
    scatter_S656x256_S1_S128x256_01_n_0_0.start j idx 0 = (idx (ix1 (0 : Fin 1))).toInt := by
  show (idx (scatter_S656x256_S1_S128x256_01_n_0_0.siIdx j ⟨0, _⟩)).toInt = _
  refine congrArg (fun k => (idx k).toInt) (funext fun b => ?_)
  match b with | ⟨0, _⟩ => rfl
theorem start_b2_0 (j : S256.Idx) (idx : IVec S1 32) :
    scatter_S656x256_S1_S256_0_0_0_0.start j idx 0 = (idx (ix1 (0 : Fin 1))).toInt := by
  show (idx (scatter_S656x256_S1_S256_0_0_0_0.siIdx j ⟨0, _⟩)).toInt = _
  refine congrArg (fun k => (idx k).toInt) (funext fun b => ?_)
  match b with | ⟨0, _⟩ => rfl

/-- Entry (s, k) of w1 lands on slab entry (s, k). -/
def landW1 (j : S512x128.Idx) : S656x256.Idx :=
  ix2 ⟨(j 0).val, by have := idx2_lt0 j; omega⟩ ⟨(j 1).val, by have := idx2_lt1 j; omega⟩
/-- Entry k of b1 lands on slab entry (512, k). -/
def landB1 (j : S128.Idx) : S656x256.Idx :=
  ix2 ⟨512, by omega⟩ ⟨(j 0).val, by have : (j 0).val < 128 := (j 0).isLt; omega⟩
/-- Entry (k, q) of w2 lands on slab entry (520 + k, q). -/
def landW2 (j : S128x256.Idx) : S656x256.Idx :=
  ix2 ⟨520 + (j 0).val, by have := idx2_lt0 j; omega⟩ ⟨(j 1).val, idx2_lt1 j⟩
/-- Entry q of b2 lands on slab entry (648, q). -/
def landB2 (j : S256.Idx) : S656x256.Idx :=
  ix2 ⟨648, by omega⟩ ⟨(j 0).val, (j 0).isLt⟩

theorem hlandW1 (j : S512x128.Idx) : scatter_S656x256_S2_S512x128_01_n_01_0.resultIdx? j at00 = some (landW1 j) := by
  rw [resultIdx?_eq_some_iff]
  intro a
  match a with
  | ⟨0, _⟩ =>
    show scatter_S656x256_S2_S512x128_01_n_01_0.start j at00 0 + (((j 0).val : Nat) : Int) = (((j 0).val : Nat) : Int)
    rw [start_w1_0]; show (0#32 : BitVec 32).toInt + _ = _; simp
  | ⟨1, _⟩ =>
    show scatter_S656x256_S2_S512x128_01_n_01_0.start j at00 1 + (((j 1).val : Nat) : Int) = (((j 1).val : Nat) : Int)
    rw [start_w1_1]; show (0#32 : BitVec 32).toInt + _ = _; simp

theorem hlandB1 (j : S128.Idx) : scatter_S656x256_S2_S128_0_0_01_0.resultIdx? j at512 = some (landB1 j) := by
  rw [resultIdx?_eq_some_iff]
  intro a
  match a with
  | ⟨0, _⟩ =>
    show scatter_S656x256_S2_S128_0_0_01_0.start j at512 0 + ((0 : Nat) : Int) = ((512 : Nat) : Int)
    rw [start_b1_0]; show (512#32 : BitVec 32).toInt + _ = _; decide
  | ⟨1, _⟩ =>
    show scatter_S656x256_S2_S128_0_0_01_0.start j at512 1 + (((j 0).val : Nat) : Int) = (((j 0).val : Nat) : Int)
    rw [start_b1_1]; show (0#32 : BitVec 32).toInt + _ = _; simp

theorem hlandW2 (j : S128x256.Idx) : scatter_S656x256_S1_S128x256_01_n_0_0.resultIdx? j at520 = some (landW2 j) := by
  rw [resultIdx?_eq_some_iff]
  intro a
  match a with
  | ⟨0, _⟩ =>
    show scatter_S656x256_S1_S128x256_01_n_0_0.start j at520 0 + (((j 0).val : Nat) : Int) = ((520 + (j 0).val : Nat) : Int)
    rw [start_w2_0]; show (520#32 : BitVec 32).toInt + _ = _
    have h : (520#32 : BitVec 32).toInt = 520 := by decide
    rw [h]; push_cast; ring
  | ⟨1, _⟩ =>
    show (0 : Int) + (((j 1).val : Nat) : Int) = (((j 1).val : Nat) : Int)
    simp

theorem hlandB2 (j : S256.Idx) : scatter_S656x256_S1_S256_0_0_0_0.resultIdx? j at648 = some (landB2 j) := by
  rw [resultIdx?_eq_some_iff]
  intro a
  match a with
  | ⟨0, _⟩ =>
    show scatter_S656x256_S1_S256_0_0_0_0.start j at648 0 + ((0 : Nat) : Int) = ((648 : Nat) : Int)
    rw [start_b2_0]; show (648#32 : BitVec 32).toInt + _ = _; decide
  | ⟨1, _⟩ =>
    show (0 : Int) + (((j 0).val : Nat) : Int) = (((j 0).val : Nat) : Int)
    simp

theorem landW1_inj : Function.Injective landW1 := fun j j' h => by
  have h0 : (j 0).val = (j' 0).val := congrArg (fun i : S656x256.Idx => (i 0).val) h
  have h1 : (j 1).val = (j' 1).val := congrArg (fun i : S656x256.Idx => (i 1).val) h
  funext a; apply Fin.ext
  match a with | ⟨0, _⟩ => exact h0 | ⟨1, _⟩ => exact h1
theorem landB1_inj : Function.Injective landB1 := fun j j' h => by
  have h1 : (j 0).val = (j' 0).val := congrArg (fun i : S656x256.Idx => (i 1).val) h
  funext a; apply Fin.ext
  match a with | ⟨0, _⟩ => exact h1
theorem landW2_inj : Function.Injective landW2 := fun j j' h => by
  have h0 : 520 + (j 0).val = 520 + (j' 0).val := congrArg (fun i : S656x256.Idx => (i 0).val) h
  have h1 : (j 1).val = (j' 1).val := congrArg (fun i : S656x256.Idx => (i 1).val) h
  funext a; apply Fin.ext
  match a with | ⟨0, _⟩ => show (j 0).val = (j' 0).val; omega | ⟨1, _⟩ => exact h1
theorem landB2_inj : Function.Injective landB2 := fun j j' h => by
  have h1 : (j 0).val = (j' 0).val := congrArg (fun i : S656x256.Idx => (i 1).val) h
  funext a; apply Fin.ext
  match a with | ⟨0, _⟩ => exact h1

/-! ## The slab read inside each window -/

variable (w1 : S512x128.Idx → EReal) (b1 : S1x128.Idx → EReal) (w2 : S128x256.Idx → EReal) (b2 : S1x256.Idx → EReal)

/-- Rows 0 … 511, columns 0 … 127 hold w1. -/
theorem slab_w1 (i : S656x256.Idx) (s : Fin 512) (k : Fin 128) (h0 : (i 0).val = s.val) (h1 : (i 1).val = k.val) :
    slab w1 b1 w2 b2 i = w1 (ix2 s k) := by
  have hi : i = landW1 (ix2 s k) := by
    funext a; apply Fin.ext
    match a with | ⟨0, _⟩ => exact h0 | ⟨1, _⟩ => exact h1
  subst hi
  unfold slab
  rw [scatter_set_off _ _ _ _ landB2 hlandB2 _ (fun j h => by
        have e : (648 : Nat) = s.val := congrArg (fun i : S656x256.Idx => (i 0).val) h
        have := s.isLt; omega),
    scatter_set_off _ _ _ _ landW2 hlandW2 _ (fun j h => by
        have e : 520 + (j 0).val = s.val := congrArg (fun i : S656x256.Idx => (i 0).val) h
        have := s.isLt; omega),
    scatter_set_off _ _ _ _ landB1 hlandB1 _ (fun j h => by
        have e : (512 : Nat) = s.val := congrArg (fun i : S656x256.Idx => (i 0).val) h
        have := s.isLt; omega)]
  exact scatter_set_land _ _ _ _ landW1 hlandW1 landW1_inj (ix2 s k)

/-- Row 512, columns 0 … 127 hold b1. -/
theorem slab_b1 (i : S656x256.Idx) (k : Fin 128) (h0 : (i 0).val = 512) (h1 : (i 1).val = k.val) :
    slab w1 b1 w2 b2 i = b1 (ix2 (0 : Fin 1) k) := by
  have hi : i = landB1 (ix1 k) := by
    funext a; apply Fin.ext
    match a with | ⟨0, _⟩ => exact h0 | ⟨1, _⟩ => exact h1
  subst hi
  unfold slab
  rw [scatter_set_off _ _ _ _ landB2 hlandB2 _ (fun j h => by
        have e : (648 : Nat) = 512 := congrArg (fun i : S656x256.Idx => (i 0).val) h
        omega),
    scatter_set_off _ _ _ _ landW2 hlandW2 _ (fun j h => by
        have e : 520 + (j 0).val = 512 := congrArg (fun i : S656x256.Idx => (i 0).val) h
        omega)]
  refine (scatter_set_land _ _ _ _ landB1 hlandB1 landB1_inj (ix1 k)).trans ?_
  refine shapeCast_apply b1 shapeCasts_S1x128_S128 (ix1 k) (ix2 (0 : Fin 1) k) ?_
  rw [Shape.rowMajor_val_two, Shape.rowMajor_val_one]
  show 0 * 128 + k.val = k.val
  omega

/-- Rows 520 … 647 hold w2. -/
theorem slab_w2 (i : S656x256.Idx) (k : Fin 128) (q : Fin 256) (h0 : (i 0).val = 520 + k.val) (h1 : (i 1).val = q.val) :
    slab w1 b1 w2 b2 i = w2 (ix2 k q) := by
  have hi : i = landW2 (ix2 k q) := by
    funext a; apply Fin.ext
    match a with | ⟨0, _⟩ => exact h0 | ⟨1, _⟩ => exact h1
  subst hi
  unfold slab
  rw [scatter_set_off _ _ _ _ landB2 hlandB2 _ (fun j h => by
        have e : (648 : Nat) = 520 + k.val := congrArg (fun i : S656x256.Idx => (i 0).val) h
        have := k.isLt; omega)]
  exact scatter_set_land _ _ _ _ landW2 hlandW2 landW2_inj (ix2 k q)

/-- Row 648 holds b2. -/
theorem slab_b2 (i : S656x256.Idx) (q : Fin 256) (h0 : (i 0).val = 648) (h1 : (i 1).val = q.val) :
    slab w1 b1 w2 b2 i = b2 (ix2 (0 : Fin 1) q) := by
  have hi : i = landB2 (ix1 q) := by
    funext a; apply Fin.ext
    match a with | ⟨0, _⟩ => exact h0 | ⟨1, _⟩ => exact h1
  subst hi
  unfold slab
  refine (scatter_set_land _ _ _ _ landB2 hlandB2 landB2_inj (ix1 q)).trans ?_
  refine shapeCast_apply b2 shapeCasts_S1x256_S256 (ix1 q) (ix2 (0 : Fin 1) q) ?_
  rw [Shape.rowMajor_val_two, Shape.rowMajor_val_one]
  show 0 * 256 + q.val = q.val
  omega

/-! ## The slab is what the region finds -/

/-- Contents carried to a typed reference's buffer type and back are the contents. -/
theorem ofBuf_toBuf {sig : RefSig} {Val : EltTy → Type} {T : BufTy} (x : StableHlo.TRef sig T) (v : T.Contents Val) :
    x.ofBuf (x.toBuf v) = v := by
  obtain ⟨r, h, hd, hu⟩ := x
  subst h
  rfl

variable (m : (ℓ : Loc nD τ sig) → Buf (Elt Ideal) ℓ)

set_option maxHeartbeats 4000000 in
attribute [local irreducible] Host.scatter in
/-- After @main's operations before the call, the array the call's second window stages is the slab of the arguments. -/
theorem V_slab (c : Dev nD) :
    (V (F := Ideal) m c main_call0_v14 : S656x256.Idx → EReal)
      = slab (m ((c : Thread nD τ).loc main_arg1)) (m ((c : Thread nD τ).loc main_arg2))
          (m ((c : Thread nD τ).loc main_arg3)) (m ((c : Thread nD τ).loc main_arg4)) := by
  dsimp only [Gen.V, Gen.hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [ofBuf_toBuf]
  unfold slab
  rfl

end Cert.ReferenceIdeal.Slab

end
-- ==== Proof.RefValue.lean ====
/-
  WHAT THE REFERENCE LEAVES IN ITS RESULT ARRAY, at the ideal values. The reference walks 8 grid points; point t stages
  rows 2048·t … 2048·t + 2047 of x and the whole 656 × 256 parameter slab, reads w1, b1, w2 and b2 out of the slab through
  four rectangles (rows 0 … 511, row 512, rows 520 … 647, row 648), and writes back a 2048 × 256 block of the result whose
  entry (p, q) is `Mlp.row` of row p of the staged x block with the four matrices it read (`pay_apply`). The slab holds the
  four argument matrices in exactly those rectangles (Proof/RefSlab.lean), so each written block is the matching block of
  `Mlp.out` of the arguments (`flushed_eq`); the 8 blocks tile the 16384 rows (`cover`), hence the result array is
  `Mlp.out` of the arguments.
-/
import proofs.«137858_g2000002520895961_pallasbulk_315_2_alg».proof.Proof.Gen.ReferenceIdeal.Value
import proofs.«137858_g2000002520895961_pallasbulk_315_2_alg».proof.Proof.MlpSpec
import proofs.«137858_g2000002520895961_pallasbulk_315_2_alg».proof.Proof.RefSlab

set_option maxRecDepth 16384

noncomputable section

namespace Cert.ReferenceIdeal.MlpValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The body's payload at an entry -/

/-- Entry (p, q) of the block the body stores: the network's output row for row p of the staged x block, with the four
    matrices the body read out of the slab. -/
theorem pay_apply (v0 : Vec Ideal S2048x512 .f32) (v1 : Vec Ideal S512x128 .f32) (v3 : Vec Ideal S1x128 .f32)
    (v5 : Vec Ideal S128x256 .f32) (v7 : Vec Ideal S1x256 .f32) (p : Fin 2048) (q : Fin 256) :
    k0_pay1 (F := Ideal) v0 v1 v3 v5 v7 (ix2 p q) = Cert.Mlp.row (fun s => v0 (ix2 p s)) v1 v3 v5 v7 q := by
  unfold k0_pay1
  simp only [shapeCast_self]
  exact Cert.Mlp.block_apply (R := 2048) (φa := .f32) (φb := .f32) (φc := .f32) (φd := .f32)
    dot_S2048x512_S512x128_S2048x128_1_0_0_1_n_n Facts₀.dot_S2048x512_S512x128_S2048x128_1_0_0_1_n_n_wf rfl
    dot_S2048x128_S128x256_S2048x256_1_0_0_1_n_n Facts₀.dot_S2048x128_S128x256_S2048x256_1_0_0_1_n_n_wf rfl
    Facts₀.broadcasts_S1x128_S2048x128 Facts₀.broadcasts_S1x256_S2048x256 v0 v1 v3 v5 v7 p q

/-- The result array as one function of x as the region finds it and of the four argument matrices. -/
abbrev G (c : Dev nD) : S16384x256.Idx → EReal :=
  Cert.Mlp.out (V m c main_arg0) (m ((c : Thread nD τ).loc main_arg1)) (m ((c : Thread nD τ).loc main_arg2))
    (m ((c : Thread nD τ).loc main_arg3)) (m ((c : Thread nD τ).loc main_arg4))

/-! ## From blocks to the array -/

/-- The printed index maps over the 8 points: x and the result move together down the rows, one block per point; the
    slab stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `G`. -/
theorem flushed_eq (c : Dev nD) (t : Fin cfg0.N) :
    (dats m 0 c).flushed 2 t = ((cfg0.win 2).blk t).view.read (Elt Ideal) (G m c) := by
  rw [Cert.ReferenceIdeal.Value.flushed2]
  unfold out0_2
  rw [View.canon_unit_zero hz]
  simp only [View.ld_unit_zero (S := S2048x512) hz]
  obtain ⟨e00, e01, e10, e11, e20, e21⟩ := idx_facts t
  funext j
  obtain ⟨p, q, rfl⟩ : ∃ (p : Fin 2048) (q : Fin 256), j = ix2 p q := ⟨j 0, j 1, eq_ix2 j⟩
  show k0_pay1 (F := Ideal) (iblk m c 0 t) (View.ld (iblk m c 1 t) r0_1) (View.ld (iblk m c 1 t) r0_2)
      (View.ld (iblk m c 1 t) r0_3) (View.ld (iblk m c 1 t) r0_4) (ix2 p q)
    = G m c (((cfg0.win 2).blk t).view.emb (ix2 p q))
  refine (pay_apply (iblk m c 0 t) (View.ld (iblk m c 1 t) r0_1) (View.ld (iblk m c 1 t) r0_2)
      (View.ld (iblk m c 1 t) r0_3) (View.ld (iblk m c 1 t) r0_4) p q).trans ?_
  have hx : (fun s : Fin 512 => (iblk m c 0 t : S2048x512.Idx → EReal) (ix2 p s))
      = fun s => (V m c main_arg0 : S16384x512.Idx → EReal) (ix2 ((((cfg0.win 2).blk t).view.emb (ix2 p q)) 0) s) := by
    funext s
    show (V m c main_arg0 : S16384x512.Idx → EReal) (((cfg0.win 0).blk t).view.emb (ix2 p s)) = _
    refine congrArg (V m c main_arg0 : S16384x512.Idx → EReal) (funext fun a => Fin.ext ?_)
    match a with
    | ⟨0, _⟩ =>
      show win0_0.index t (0 : Fin 2) * 2048 + 1 * p.val = win0_2.index t (0 : Fin 2) * 2048 + 1 * p.val
      rw [e00, e20]
    | ⟨1, _⟩ =>
      show win0_0.index t (1 : Fin 2) * 512 + 1 * s.val = s.val
      rw [e01]; omega
  have hS : ∀ i : S656x256.Idx, (iblk m c 1 t : S656x256.Idx → EReal) i
      = Slab.slab (m ((c : Thread nD τ).loc main_arg1)) (m ((c : Thread nD τ).loc main_arg2))
          (m ((c : Thread nD τ).loc main_arg3)) (m ((c : Thread nD τ).loc main_arg4)) i := by
    intro i
    show (V m c main_call0_v14 : S656x256.Idx → EReal) (((cfg0.win 1).blk t).view.emb i) = _
    rw [Slab.V_slab]
    refine congrArg _ (funext fun a => Fin.ext ?_)
    match a with
    | ⟨0, _⟩ => show win0_1.index t (0 : Fin 2) * 656 + 1 * (i 0).val = (i 0).val; rw [e10]; omega
    | ⟨1, _⟩ => show win0_1.index t (1 : Fin 2) * 256 + 1 * (i 1).val = (i 1).val; rw [e11]; omega
  have h1 : (View.ld (iblk m c 1 t : S656x256.Idx → EReal) r0_1 : S512x128.Idx → EReal) = m ((c : Thread nD τ).loc main_arg1) := by
    funext y
    show (iblk m c 1 t : S656x256.Idx → EReal) (r0_1.emb y) = _
    rw [hS, Slab.slab_w1 _ _ _ _ (r0_1.emb y) (y 0) (y 1) (by show 0 + 1 * (y 0).val = (y 0).val; omega)
      (by show 0 + 1 * (y 1).val = (y 1).val; omega)]
    exact congrArg _ (eq_ix2 y).symm
  have h2 : (View.ld (iblk m c 1 t : S656x256.Idx → EReal) r0_2 : S1x128.Idx → EReal) = m ((c : Thread nD τ).loc main_arg2) := by
    funext y
    show (iblk m c 1 t : S656x256.Idx → EReal) (r0_2.emb y) = _
    have hy0 : (y 0).val = 0 := by have : (y 0).val < 1 := (y 0).isLt; omega
    rw [hS, Slab.slab_b1 _ _ _ _ (r0_2.emb y) (y 1) (by show 512 + 1 * (y 0).val = 512; omega)
      (by show 0 + 1 * (y 1).val = (y 1).val; omega)]
    refine congrArg _ (funext fun a => Fin.ext ?_)
    match a with
    | ⟨0, _⟩ => exact hy0.symm
    | ⟨1, _⟩ => rfl
  have h3 : (View.ld (iblk m c 1 t : S656x256.Idx → EReal) r0_3 : S128x256.Idx → EReal) = m ((c : Thread nD τ).loc main_arg3) := by
    funext y
    show (iblk m c 1 t : S656x256.Idx → EReal) (r0_3.emb y) = _
    rw [hS, Slab.slab_w2 _ _ _ _ (r0_3.emb y) (y 0) (y 1) (by show 520 + 1 * (y 0).val = 520 + (y 0).val; omega)
      (by show 0 + 1 * (y 1).val = (y 1).val; omega)]
    exact congrArg _ (eq_ix2 y).symm
  have h4 : (View.ld (iblk m c 1 t : S656x256.Idx → EReal) r0_4 : S1x256.Idx → EReal) = m ((c : Thread nD τ).loc main_arg4) := by
    funext y
    show (iblk m c 1 t : S656x256.Idx → EReal) (r0_4.emb y) = _
    have hy0 : (y 0).val = 0 := by have : (y 0).val < 1 := (y 0).isLt; omega
    rw [hS, Slab.slab_b2 _ _ _ _ (r0_4.emb y) (y 1) (by show 648 + 1 * (y 0).val = 648; omega)
      (by show 0 + 1 * (y 1).val = (y 1).val; omega)]
    refine congrArg _ (funext fun a => Fin.ext ?_)
    match a with
    | ⟨0, _⟩ => exact hy0.symm
    | ⟨1, _⟩ => rfl
  have hq : ((((cfg0.win 2).blk t).view.emb (ix2 p q)) 1 : Fin 256) = q := by
    apply Fin.ext
    show win0_2.index t (1 : Fin 2) * 256 + 1 * q.val = q.val
    rw [e21]; omega
  show Cert.Mlp.row (fun s : Fin 512 => (iblk m c 0 t : S2048x512.Idx → EReal) (ix2 p s))
      (View.ld (iblk m c 1 t : S656x256.Idx → EReal) r0_1 : S512x128.Idx → EReal)
      (View.ld (iblk m c 1 t : S656x256.Idx → EReal) r0_2 : S1x128.Idx → EReal)
      (View.ld (iblk m c 1 t : S656x256.Idx → EReal) r0_3 : S128x256.Idx → EReal)
      (View.ld (iblk m c 1 t : S656x256.Idx → EReal) r0_4 : S1x256.Idx → EReal) q
    = Cert.Mlp.row (fun s => (V m c main_arg0 : S16384x512.Idx → EReal) (ix2 ((((cfg0.win 2).blk t).view.emb (ix2 p q)) 0) s))
      (m ((c : Thread nD τ).loc main_arg1)) (m ((c : Thread nD τ).loc main_arg2)) (m ((c : Thread nD τ).loc main_arg3))
      (m ((c : Thread nD τ).loc main_arg4)) ((((cfg0.win 2).blk t).view.emb (ix2 p q)) 1)
  rw [hx, h1, h2, h3, h4, hq]

/-- An index of the result array is in point t's block iff each coordinate is in the block's range on its axis. -/
theorem mem_blk (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Every row of the result is in the block of the point its row number divided by 2048 names. -/
theorem cover (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  let t : Fin cfg0.N := ⟨(i 0).val / 2048, by show (i 0).val / 2048 < 8; omega⟩
  obtain ⟨-, -, -, -, e20, e21⟩ := idx_facts t
  have ht : t.val = (i 0).val / 2048 := rfl
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; rw [e20, ht]; omega
  | ⟨1, _⟩ => show win0_2.index t (1 : Fin 2) * 256 ≤ (i 1).val ∧ (i 1).val < win0_2.index t (1 : Fin 2) * 256 + 256; rw [e21]; omega

/-- The result array after the run is the network's output of the argument arrays. -/
theorem final (c : Dev nD) :
    (dats m 0 c).arrAt 2 cfg0.N
      = Cert.Mlp.out (m ((c : Thread nD τ).loc main_arg0)) (m ((c : Thread nD τ).loc main_arg1)) (m ((c : Thread nD τ).loc main_arg2))
          (m ((c : Thread nD τ).loc main_arg3)) (m ((c : Thread nD τ).loc main_arg4)) := by
  rw [(dats m 0 c).arrAt_eq_of_cover 2 (G m c) (fun t _ => flushed_eq m c t) cover]
  show Cert.Mlp.out (V m c main_arg0) _ _ _ _ = _
  rw [V_main_arg0]

/-- The reference's run: the result array at the network's output of the arguments, the arguments unchanged. -/
theorem run : θ_run defs (onTc (τ := τ) (main (F := Ideal))) ⟨m, fun _ => 0, ρ⟩ fun r => ∀ c : Dev nD,
      r.2.mem ((c : Thread nD τ).loc main_v0)
        = Cert.Mlp.out (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.ReferenceIdeal.Value.run_blocks m ρ)

end Cert.ReferenceIdeal.MlpValue

end
-- ==== Proof.lean ====
/-
  A fused two-layer perceptron, out = relu(x · w1 + b1) · w2 + b2 over x : f32[16384, 512], w1 : f32[512, 128],
  b1 : f32[1, 128], w2 : f32[128, 256], b2 : f32[1, 256], against a reference that computes the same network from ONE
  packed parameter array.

  The kernel converts x, w1, w2 and the hidden activations to bf16 around its two matrix products and walks the rows in 32
  blocks of 512; the reference packs w1, b1, w2, b2 into a 656 × 256 slab of zeros (four overwriting scatters at the
  constant starts (0, 0), (512, 0), row 520 and row 648), walks the rows in 8 blocks of 2048, and reads the four matrices back
  out of the slab inside its body. At the ideal values a change of float format is the identity, a matrix product into a
  zero splat is the plain sum of products, and the four slab windows do not meet, so both programs leave in the result
  array the same function of the arguments, entry by entry (Proof/MlpSpec.lean `Mlp.out`):

      out(r, q) = ( ∑ k < 128, max( (∑ s < 512, x(r, s) · w1(s, k)) + b1(0, k), 0 ) · w2(k, q) ) + b2(0, q).

  No law of arithmetic joins the two sides — they are the same sums over the same index sets, tiled differently — so the
  finiteness of the inputs is never used. The idealization rewrote nothing, so `preserves` is `True`.
  Proof/KernelValue.lean and Proof/RefValue.lean read each program's blocks and assemble its result array;
  Proof/RefSlab.lean reads the slab; the three frames are the generated ones.
-/
import proofs.«137858_g2000002520895961_pallasbulk_315_2_alg».proof.Defs
import proofs.«137858_g2000002520895961_pallasbulk_315_2_alg».proof.Proof.Gen.Kernel
import proofs.«137858_g2000002520895961_pallasbulk_315_2_alg».proof.Proof.Gen.Kernel.Skeleton
import proofs.«137858_g2000002520895961_pallasbulk_315_2_alg».proof.Proof.Gen.Kernel.Launch
import proofs.«137858_g2000002520895961_pallasbulk_315_2_alg».proof.Proof.Gen.Kernel.Points
import proofs.«137858_g2000002520895961_pallasbulk_315_2_alg».proof.Proof.Gen.Kernel.Frame
import proofs.«137858_g2000002520895961_pallasbulk_315_2_alg».proof.Proof.Gen.KernelIdeal
import proofs.«137858_g2000002520895961_pallasbulk_315_2_alg».proof.Proof.Gen.KernelIdeal.Skeleton
import proofs.«137858_g2000002520895961_pallasbulk_315_2_alg».proof.Proof.Gen.KernelIdeal.Launch
import proofs.«137858_g2000002520895961_pallasbulk_315_2_alg».proof.Proof.Gen.KernelIdeal.Points
import proofs.«137858_g2000002520895961_pallasbulk_315_2_alg».proof.Proof.Gen.KernelIdeal.Frame
import proofs.«137858_g2000002520895961_pallasbulk_315_2_alg».proof.Proof.Gen.ReferenceIdeal
import proofs.«137858_g2000002520895961_pallasbulk_315_2_alg».proof.Proof.Gen.ReferenceIdeal.Skeleton
import proofs.«137858_g2000002520895961_pallasbulk_315_2_alg».proof.Proof.Gen.ReferenceIdeal.Launch
import proofs.«137858_g2000002520895961_pallasbulk_315_2_alg».proof.Proof.Gen.ReferenceIdeal.Points
import proofs.«137858_g2000002520895961_pallasbulk_315_2_alg».proof.Proof.Gen.ReferenceIdeal.Frame
import proofs.«137858_g2000002520895961_pallasbulk_315_2_alg».proof.Proof.Gen.Pre_finite_inputs
import proofs.«137858_g2000002520895961_pallasbulk_315_2_alg».proof.Proof.Gen.KernelIdeal.Value
import proofs.«137858_g2000002520895961_pallasbulk_315_2_alg».proof.Proof.Gen.ReferenceIdeal.Value
import proofs.«137858_g2000002520895961_pallasbulk_315_2_alg».proof.Proof.KernelValue
import proofs.«137858_g2000002520895961_pallasbulk_315_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From memories that agree on the five arguments both programs end with the result array at `Mlp.out` of the
    arguments: the kernel's run (Proof/KernelValue.lean) and the reference's (Proof/RefValue.lean) state it of their own
    arguments, and the arguments are equal. -/
theorem algebraic : Cert.algebraic_KernelIdeal_ReferenceIdeal := by
  intro m ρ m' ρ' _ hagree
  refine ⟨_, Cert.KernelIdeal.MlpValue.run m ρ, ?_⟩
  refine (θ_run Cert.ReferenceIdeal.defs _ _).mono (fun r h c => ⟨(h c).1.trans ?_, (h c).2⟩)
    (Cert.ReferenceIdeal.MlpValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
